-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x2048 : Shape := ⟨3, ![16, 3, 2048]⟩
abbrev S_ : Shape := ⟨0, ![]⟩

class Facts : Prop where
  bcast_S_S16x3x2048 : S_.BroadcastsInDim S16x3x2048 (![] : Fin 0 → Fin S16x3x2048.rank)
  reducesTo_S16x3x2048_S_d0_1_2 : S16x3x2048.ReducesTo [0, 1, 2] S_
  h_S_ : 0 < S_.numel

variable [Facts]

def fn {F : FTy → Type} [FloatOps F] (main_arg0 : FVec F S16x3x2048 .f32) (main_arg1 : FVec F S16x3x2048 .f32) : IVec S_ 1 :=
  let main_v0 : FVec F S16x3x2048 .f32 := Host.absf main_arg0
  let main_cst : FVec F S_ .f32 := constant S_ .f32 0x7F800000#32
  let main_v1 : FVec F S16x3x2048 .f32 := broadcastInDim S16x3x2048 ![] bcast_S_S16x3x2048 main_cst
  let main_v2 : IVec S16x3x2048 1 := cmpf .olt main_v0 main_v1
  let main_c : IVec S_ 1 := constantI S_ 1 1#1
  let main_v3 : IVec S_ 1 := (fun x v => Host.reduce IntOp.andi x v reducesTo_S16x3x2048_S_d0_1_2 h_S_) main_v2 main_c
  let main_v4 : FVec F S16x3x2048 .f32 := Host.absf main_arg1
  let main_cst_0 : FVec F S_ .f32 := constant S_ .f32 0x7F800000#32
  let main_v5 : FVec F S16x3x2048 .f32 := broadcastInDim S16x3x2048 ![] bcast_S_S16x3x2048 main_cst_0
  let main_v6 : IVec S16x3x2048 1 := cmpf .olt main_v4 main_v5
  let main_c_1 : IVec S_ 1 := constantI S_ 1 1#1
  let main_v7 : IVec S_ 1 := (fun x v => Host.reduce IntOp.andi x v reducesTo_S16x3x2048_S_d0_1_2 h_S_) main_v6 main_c_1
  let main_v8 : IVec S_ 1 := andi main_v3 main_v7
  main_v8
-- ==== Kernel.lean ====
abbrev S16x3x2048 : Shape := ⟨3, ![16, 3, 2048]⟩
abbrev S16x1x2048 : Shape := ⟨3, ![16, 1, 2048]⟩
abbrev S1x3x2048 : Shape := ⟨3, ![1, 3, 2048]⟩
abbrev S1x3x512 : Shape := ⟨3, ![1, 3, 512]⟩
abbrev S1x1x512 : Shape := ⟨3, ![1, 1, 512]⟩
abbrev S1x1x2048 : Shape := ⟨3, ![1, 1, 2048]⟩
abbrev S3x2048 : Shape := ⟨2, ![3, 2048]⟩
abbrev S3x512 : Shape := ⟨2, ![3, 512]⟩
abbrev S2048 : Shape := ⟨1, ![2048]⟩
abbrev S512 : Shape := ⟨1, ![512]⟩
abbrev S2048x3 : Shape := ⟨2, ![2048, 3]⟩
abbrev S2048x512 : Shape := ⟨2, ![2048, 512]⟩
abbrev S2048x1 : Shape := ⟨2, ![2048, 1]⟩
abbrev S1x512 : Shape := ⟨2, ![1, 512]⟩
abbrev S16x2048 : Shape := ⟨2, ![16, 2048]⟩
abbrev S_ : Shape := ⟨0, ![]⟩

abbrev nBuf : Space → Nat
  | .hbm => 15
  | .vmem => 8
  | .smem => 0
  | _ => 0

abbrev bufTy : (tb : Table) → Fin (tcTables nBuf tb) → BufTy
  | .hbm, ⟨0, _⟩ => ⟨S16x3x2048, .f32⟩
  | .hbm, ⟨1, _⟩ => ⟨S16x3x2048, .f32⟩
  | .hbm, ⟨2, _⟩ => ⟨S16x1x2048, .f32⟩
  | .hbm, ⟨3, _⟩ => ⟨S16x1x2048, .f32⟩
  | .hbm, ⟨4, _⟩ => ⟨S16x2048, .f32⟩
  | .hbm, ⟨5, _⟩ => ⟨S16x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x3x2048, .f32⟩
  | .local _ .vmem, ⟨1, _⟩ => ⟨S1x3x2048, .f32⟩
  | .local _ .vmem, ⟨2, _⟩ => ⟨S1x3x512, .f32⟩
  | .local _ .vmem, ⟨3, _⟩ => ⟨S1x3x512, .f32⟩
  | .local _ .vmem, ⟨4, _⟩ => ⟨S1x1x512, .f32⟩
  | .local _ .vmem, ⟨5, _⟩ => ⟨S1x1x512, .f32⟩
  | .local _ .vmem, ⟨6, _⟩ => ⟨S1x1x2048, .f32⟩
  | .local _ .vmem, ⟨7, _⟩ => ⟨S1x1x2048, .f32⟩
  | _, _ => ⟨S16x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v25 : BitVec 1 := Scalar.cmpi .eq arg1 c0_i32
  let v26 : BitVec 32 := Scalar.extui v25
  let c0_i32_14 : BitVec 32 := 0#32
  let v27 : BitVec 1 := Scalar.cmpi .ne v26 c0_i32_14
  v27

def k0_cond2 (i : grid0.Coords) : BitVec 1 :=
  let arg1 : BitVec 32 := BitVec.ofNat 32 (i 1).val
  let c0_i32_15 : BitVec 32 := 0#32
  let v28 : BitVec 1 := Scalar.cmpi .sgt arg1 c0_i32_15
  let v29 : BitVec 32 := Scalar.extui v28
  let c0_i32_16 : BitVec 32 := 0#32
  let v30 : BitVec 1 := Scalar.cmpi .ne v29 c0_i32_16
  v30

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  reduces_S3x2048_S2048 : S3x2048.Reduces [0] S2048
  reduces_S3x512_S512 : S3x512.Reduces [0] S512
  transposes_S3x2048_p1_0_S2048x3 : S3x2048.Transposes [1, 0] S2048x3
  shapeCasts_S2048_S2048x1 : S2048.ShapeCasts S2048x1
  shapeCasts_S512_S1x512 : S512.ShapeCasts S1x512
  broadcasts_S2048x1_S2048x512 : S2048x1.Broadcasts S2048x512
  broadcasts_S1x512_S2048x512 : S1x512.Broadcasts S2048x512
  reduces_S2048x512_S512 : S2048x512.Reduces [0] S512
  reduces_S2048x512_S2048 : S2048x512.Reduces [1] S2048
  shapeCasts_S512_S1x1x512 : S512.ShapeCasts S1x1x512
  inb_S1x1x512_S1x1x512_0_0_0 : ∀ a, (![0, 0, 0] : Fin 3 → Nat) a + S1x1x512.size a ≤ S1x1x512.size a
  h_S1x1x512 : 0 < S1x1x512.numel
  shapeCasts_S2048_S1x1x2048 : S2048.ShapeCasts S1x1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  shapeCasts_S16x1x2048_S16x2048 : S16x1x2048.ShapeCasts S16x2048
  reducesTo_S16x2048_S_d0_1 : S16x2048.ReducesTo [0, 1] S_
  h_S_ : 0 < S_.numel
  dot_S2048x3_S3x512_S2048x512_1_0_0_1_n_n_wf : DotDims.WF S2048x3 S3x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x2048.size a ≤ S16x3x2048.size a
  hwx0_0 : ∀ i : grid0.Coords, EltTy.bits .f32 = 32 ∨ (Rect.block (s := S16x3x2048) S1x3x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512.size a ≤ S16x3x2048.size a
  hwx0_1 : ∀ i : grid0.Coords, EltTy.bits .f32 = 32 ∨ (Rect.block (s := S16x3x2048) S1x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S16x1x2048.size a
  hwx0_2 : ∀ i : grid0.Coords, EltTy.bits .f32 = 32 ∨ (Rect.block (s := S16x1x2048) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S16x1x2048.size a
  hwx0_3 : ∀ i : grid0.Coords, EltTy.bits .f32 = 32 ∨ (Rect.block (s := S16x1x2048) S1x1x2048.size (cc0_transform_3 i) (hinb0_3 i)).WholeWords (EltTy.packing .f32)

variable [Facts₀]

def dot_S2048x3_S3x512_S2048x512_1_0_0_1_n_n : DotDims S2048x3 S3x512 S2048x512 where
  lhsContracting := [1]
  rhsContracting := [0]
  lhsNonContracting := [0]
  rhsNonContracting := [1]
  lhsBatch := []
  rhsBatch := []
  wf := dot_S2048x3_S3x512_S2048x512_1_0_0_1_n_n_wf

abbrev win0_0 : Pipeline.Window sig grid0 :=
  Pipeline.Window.ofSpec (Memref.whole main_arg0) S1x3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S16x3x2048 : Shape := ⟨3, ![16, 3, 2048]⟩
abbrev S_ : Shape := ⟨0, ![]⟩
abbrev S16x2048 : Shape := ⟨2, ![16, 2048]⟩
abbrev S16x2048x2048 : Shape := ⟨3, ![16, 2048, 2048]⟩
abbrev S16x2048x1 : Shape := ⟨3, ![16, 2048, 1]⟩
abbrev S16x1x2048 : Shape := ⟨3, ![16, 1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S16x3x2048, .f32⟩
  | .hbm, ⟨1, _⟩ => ⟨S16x3x2048, .f32⟩
  | .hbm, ⟨2, _⟩ => ⟨S16x3x2048, .f32⟩
  | .hbm, ⟨3, _⟩ => ⟨S_, .f32⟩
  | .hbm, ⟨4, _⟩ => ⟨S16x2048, .f32⟩
  | .hbm, ⟨5, _⟩ => ⟨S16x3x2048, .f32⟩
  | .hbm, ⟨6, _⟩ => ⟨S_, .f32⟩
  | .hbm, ⟨7, _⟩ => ⟨S16x2048, .f32⟩
  | .hbm, ⟨8, _⟩ => ⟨S16x2048x2048, .f32⟩
  | .hbm, ⟨9, _⟩ => ⟨S16x2048x1, .f32⟩
  | .hbm, ⟨10, _⟩ => ⟨S16x1x2048, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x2048, .f32⟩
  | .hbm, ⟨24, _⟩ => ⟨S_, .f32⟩
  | .hbm, ⟨25, _⟩ => ⟨S16x2048, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S16x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S16x3x2048_S16x2048_d1 : S16x3x2048.ReducesTo [1] S16x2048
  h_S_ : 0 < S_.numel
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16x2048_d1 : S16x2048x2048.ReducesTo [1] S16x2048
  reducesTo_S16x2048x2048_S16x2048_d2 : S16x2048x2048.ReducesTo [2] S16x2048
  reducesTo_S16x2048_S_d0_1 : S16x2048.ReducesTo [0, 1] S_
  dot_S16x3x2048_S16x3x2048_S16x2048x2048_1_1_2_2_0_0_wf : DotDims.WF S16x3x2048 S16x3x2048 S16x2048x2048 [1] [1] [2] [2] [0] [0]

variable [Facts₀]

def dot_S16x3x2048_S16x3x2048_S16x2048x2048_1_1_2_2_0_0 : DotDims S16x3x2048 S16x3x2048 S16x2048x2048 where
  lhsContracting := [1]
  rhsContracting := [1]
  lhsNonContracting := [2]
  rhsNonContracting := [2]
  lhsBatch := [0]
  rhsBatch := [0]
  wf := dot_S16x3x2048_S16x3x2048_S16x2048x2048_1_1_2_2_0_0_wf

class Facts : Prop extends Facts₀ where

variable [Facts]
-- ==== Proof.K.Run.lean ====
/-
  The kernel body's two runs, for every reading of the floats.

  One grid point (b, g) of the kernel sees batch `b`'s 2048 predicted points and tile `g` of 512 ground-truth points,
  computes the 2048 × 512 distances between them, stores into its first output buffer the least distance per
  ground-truth point of the tile, and keeps in its second output buffer a running minimum per predicted point: at the
  first tile (g = 0) the buffer is set to the tile's least distance per predicted point, at a later tile (g > 0) to the
  minimum of what it held and that. The two triples below say so, over the body's named pure values.
-/
import proofs.«138069_j26259430047858_1_alg».proof.Proof.Gen.Kernel.Skeleton
import proofs.«138069_j26259430047858_1_alg».proof.Proof.Gen.Kernel.Frame
import Idealize.ShloMosaic.Lib.Pipeline.Value

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer stores read back as their payload -/

/-- The whole-buffer rectangle's offsets are zero. -/
theorem off0 : (![0, 0, 0] : Fin 3 → ℕ) = fun _ => 0 := funext fun a => by fin_cases a <;> rfl

/-- One store through the whole rectangle of a [1, 1, 512] buffer covers every index of it. -/
theorem cover_z (w : Vec F S1x1x512 .f32) (y : S1x1x512.Idx) :
    ∃ pc ∈ ([⟨Rect.unit (s := S1x1x512) ![0, 0, 0] S1x1x512.size inb_S1x1x512_S1x1x512_0_0_0, w⟩] : List (View.Piece (Elt F) S1x1x512 .f32)), y ∈ pc.1.set :=
  View.cover_of_tiled [⟨Rect.unit (s := S1x1x512) ![0, 0, 0] S1x1x512.size inb_S1x1x512_S1x1x512_0_0_0, w⟩] S1x1x512.size (by rfl) y

/-- One store through the whole rectangle of a [1, 1, 2048] buffer covers every index of it. -/
theorem cover_z2 (w : Vec F S1x1x2048 .f32) (y : S1x1x2048.Idx) :
    ∃ pc ∈ ([⟨Rect.unit (s := S1x1x2048) ![0, 0, 0] S1x1x2048.size inb_S1x1x2048_S1x1x2048_0_0_0, w⟩] : List (View.Piece (Elt F) S1x1x2048 .f32)), y ∈ pc.1.set :=
  View.cover_of_tiled [⟨Rect.unit (s := S1x1x2048) ![0, 0, 0] S1x1x2048.size inb_S1x1x2048_S1x1x2048_0_0_0, w⟩] S1x1x2048.size (by rfl) y

/-! ## The body at a first tile of a batch (g = 0) and at a later tile (g > 0) -/

set_option maxHeartbeats 1000000 in
/-- At the first tile of a batch the first branch is taken and the second is not: the body leaves the tile's least
    distance per ground-truth point in the first output buffer and, whatever the second held, the tile's least distance
    per predicted point in it; the input buffers keep their blocks. -/
theorem sound_kernel_A (c : Dev nD) (i : grid0.Coords)
    (arg2 : Memref sig .tc .vmem S1x3x2048 .f32) (harg2 : arg2.IsWhole) (arg3 : Memref sig .tc .vmem S1x3x512 .f32) (harg3 : arg3.IsWhole)
    (arg4 : Memref sig .tc .vmem S1x1x512 .f32) (harg4 : arg4.IsWhole) (arg5 : Memref sig .tc .vmem S1x1x2048 .f32) (harg5 : arg5.IsWhole)
    (hc1 : k0_cond1 i = 1#1) (hc2 : ¬ k0_cond2 i = 1#1)
    (x0 : Vec F S1x3x2048 .f32) (x1 : Vec F S1x3x512 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay3 x0 x1) ∗ owns (c : Thread nD τ) arg5 fullShare (k0_pay4 x0 x1)) -∗ K ⟨⟩))
      ⊢ wp frame (wpE (defs₀ (F := F)) Variants.none c none) Set.univ (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (cover_z _), View.canon_unit_zero off0, View.readAt_eq_ld, View.readAt_eq_ld,
      harg2.read_unread, harg3.read_unread, View.ld_unit_zero off0, View.ld_unit_zero off0]
  · iexists _; isplitr
    swap; · iexact H3
    ipureintro
    rw [View.read_writes_eq_canon _ _ _ (cover_z2 _), View.canon_unit_zero off0, View.readAt_eq_ld, View.readAt_eq_ld,
      harg2.read_unread, harg3.read_unread, View.ld_unit_zero off0, View.ld_unit_zero off0]

set_option maxHeartbeats 1000000 in
/-- At a later tile of a batch the second branch is taken and the first is not: the first output buffer gets the tile's
    least distance per ground-truth point, and the second, holding `xo`, gets the minimum of `xo` and the tile's least
    distance per predicted point. -/
theorem sound_kernel_B (c : Dev nD) (i : grid0.Coords)
    (arg2 : Memref sig .tc .vmem S1x3x2048 .f32) (harg2 : arg2.IsWhole) (arg3 : Memref sig .tc .vmem S1x3x512 .f32) (harg3 : arg3.IsWhole)
    (arg4 : Memref sig .tc .vmem S1x1x512 .f32) (harg4 : arg4.IsWhole) (arg5 : Memref sig .tc .vmem S1x1x2048 .f32) (harg5 : arg5.IsWhole)
    (hc1 : ¬ k0_cond1 i = 1#1) (hc2 : k0_cond2 i = 1#1)
    (x0 : Vec F S1x3x2048 .f32) (x1 : Vec F S1x3x512 .f32) (xo : Vec F S1x1x2048 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xo
        ∗ (iprop(owns (c : Thread nD τ) arg2 fullShare x0 ∗ owns (c : Thread nD τ) arg3 fullShare x1
            ∗ owns (c : Thread nD τ) arg4 fullShare (k0_pay3 x0 x1) ∗ owns (c : Thread nD τ) arg5 fullShare (k0_pay5 x0 x1 xo)) -∗ K ⟨⟩))
      ⊢ wp frame (wpE (defs₀ (F := F)) Variants.none c none) Set.univ (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (cover_z _), View.canon_unit_zero off0, View.readAt_eq_ld, View.readAt_eq_ld,
      harg2.read_unread, harg3.read_unread, View.ld_unit_zero off0, View.ld_unit_zero off0]
  · iexists _; isplitr
    swap; · iexact H3
    ipureintro
    rw [View.read_writes_eq_canon _ _ _ (cover_z2 _), View.canon_unit_zero off0, View.readAt_eq_ld, View.readAt_eq_ld, View.readAt_eq_ld,
      harg2.read_unread, harg3.read_unread, harg5.read_unread, View.ld_unit_zero off0, View.ld_unit_zero off0, View.ld_unit_zero off0]

end Cert.Proof.K

end
-- ==== Proof.K.Body.lean ====
/-
  The pipeline's proof data, the body obligation, the run and the frame, for every reading of the floats.

  The grid is 16 batches × 4 tiles, tile fastest: point `t` is batch `t / 4`, tile `t % 4`. The first output's block
  moves at every point and is written back at every point. The second output's block is the batch's and stays in its
  staging buffer over the batch's four points; it is written back after the fourth. So what that buffer holds after
  point `t` is a running minimum (`z2At`): at a first tile the tile's least distance per predicted point, at a later
  tile the minimum of that and what the point before left.
-/
import proofs.«138069_j26259430047858_1_alg».proof.Proof.K.Run

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branches over the grid -/

/-- The first branch is taken exactly at a batch's first tile. -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)

/-- The second branch is taken exactly at the other tiles. -/
theorem hcond2 : ∀ t : Fin cfg0.N, k0_cond2 (grid0.coords t) = 1#1 ↔ ¬t.val % 4 = 0 :=
  (by decide +kernel : ∀ t : Fin grid0.N, k0_cond2 (grid0.coords t) = 1#1 ↔ ¬t.val % 4 = 0)

/-- One of the two branches is taken at every coordinate, so the second output's window is never idle. -/
theorem live3 : ∀ i : grid0.Coords, cfg0.idle 3 i = false := by decide +kernel

/-! ## What the second output's buffer holds after each point -/

/-- The running minimum per predicted point after the body at position `n`. -/
def z2At (c : Dev nD) : (n : ℕ) → n < cfg0.N → Vec F S1x1x2048 .f32
  | 0, hn => k0_pay4 (iblk m c 0 ⟨0, hn⟩) (iblk m c 1 ⟨0, hn⟩)
  | n + 1, hn =>
    if (n + 1) % 4 = 0 then k0_pay4 (iblk m c 0 ⟨n + 1, hn⟩) (iblk m c 1 ⟨n + 1, hn⟩)
    else k0_pay5 (iblk m c 0 ⟨n + 1, hn⟩) (iblk m c 1 ⟨n + 1, hn⟩) (z2At c n (Nat.lt_of_succ_lt hn))

/-- At a batch's first tile: the tile's own minimum. -/
theorem z2At_A (c : Dev nD) (t : Fin cfg0.N) (h0 : t.val % 4 = 0) :
    z2At m c t.val t.isLt = k0_pay4 (iblk m c 0 t) (iblk m c 1 t) := by
  obtain ⟨n, hn⟩ := t
  cases n with
  | zero => exact rfl
  | succ n => exact (if_pos h0).trans rfl

/-- At a later tile: the minimum with what the point before left. -/
theorem z2At_B (c : Dev nD) (t : Fin cfg0.N) (h0 : ¬t.val % 4 = 0) :
    z2At m c t.val t.isLt
      = k0_pay5 (iblk m c 0 t) (iblk m c 1 t) (z2At m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- On core `c`: the arrays as the region finds them; after the body at point `t` each input's buffer at its block, the
    first output's at the tile's least distance per ground-truth point, the second's at the running minimum; the class
    invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (iblk m c 0 t) (iblk m c 1 t)
    | ⟨3, _⟩ => z2At m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay3 (iblk m c 0 t) (iblk m c 1 t) := by dsimp only [dats]
theorem after0_3 (c : Dev nD) (t : Fin cfg0.N) : (dats m 0 c).after 3 t = z2At m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a later tile the second output's buffer holds what the body left at the point before: the point is not the
    first, the buffer is written back only after a batch's last tile, the window is live and uncut. -/
theorem before0_3_B (c : Dev nD) (t : Fin cfg0.N) (h0 : ¬t.val % 4 = 0) (d) :
    (dats m 0 c).before 3 t d = z2At m c (t.val - 1) (Nat.lt_of_le_of_lt (Nat.sub_le _ _) t.isLt) := by
  rw [Dat.before_out_kept _ 3 rfl t (by omega)
    (Bool.eq_false_iff.mpr fun h => by have := (flush0_3 _).mp h; dsimp only at this; omega)
    live3 (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 800000 in
/-- The body at any point: the inputs' buffers hold their blocks; the point is a batch's first tile or a later one, and
    at a later one the second output's buffer holds the running minimum so far; the matching run applies; the invariant
    and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 4 = 0
  · rw [z2At_A m c t h0]
    iintro ⟨HΦ, Ho, ⟨%d0, H0⟩, ⟨%d1, H1⟩, ⟨%d2, H2⟩, ⟨%d3, H3⟩⟩
    iapply (sound_kernel_A c (grid0.coords t) _ _ _ _ _ _ _ _ ((hcond1 t).mpr h0) (fun h => (hcond2 t).mp h h0)
      (iblk m c 0 t) (iblk m c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [z2At_B m c t h0]
    simp only [before0_3_B m c t h0]
    iintro ⟨HΦ, Ho, ⟨%d0, H0⟩, ⟨%d1, H1⟩, ⟨%d2, H2⟩, ⟨%d3, H3⟩⟩
    iapply (sound_kernel_B c (grid0.coords t) _ _ _ _ _ _ _ _ (fun h => h0 ((hcond1 t).mp h)) ((hcond2 t).mpr h0)
      (iblk m c 0 t) (iblk m c 1 t) _ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  rw [live3 (cfg0.grid.coords t)]
  exact sound_body m c t

/-! ## The run and the frame -/

set_option backward.isDefEq.respectTransparency.types false in
/-- From any memory with zero counters every weakly fair execution of the program terminates, and every final state has
    each array of the pipeline at what the library computes from the proof data, the later host lines run over them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Proof.K

end
-- ==== Proof.KI.Run.lean ====
/-
  The kernel body's two runs, for every reading of the floats.

  One grid point (b, g) of the kernel sees batch `b`'s 2048 predicted points and tile `g` of 512 ground-truth points,
  computes the 2048 × 512 distances between them, stores into its first output buffer the least distance per
  ground-truth point of the tile, and keeps in its second output buffer a running minimum per predicted point: at the
  first tile (g = 0) the buffer is set to the tile's least distance per predicted point, at a later tile (g > 0) to the
  minimum of what it held and that. The two triples below say so, over the body's named pure values.
-/
import proofs.«138069_j26259430047858_1_alg».proof.Proof.Gen.KernelIdeal.Skeleton
import proofs.«138069_j26259430047858_1_alg».proof.Proof.Gen.KernelIdeal.Frame
import Idealize.ShloMosaic.Lib.Pipeline.Value

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer stores read back as their payload -/

/-- The whole-buffer rectangle's offsets are zero. -/
theorem off0 : (![0, 0, 0] : Fin 3 → ℕ) = fun _ => 0 := funext fun a => by fin_cases a <;> rfl

/-- One store through the whole rectangle of a [1, 1, 512] buffer covers every index of it. -/
theorem cover_z (w : Vec F S1x1x512 .f32) (y : S1x1x512.Idx) :
    ∃ pc ∈ ([⟨Rect.unit (s := S1x1x512) ![0, 0, 0] S1x1x512.size inb_S1x1x512_S1x1x512_0_0_0, w⟩] : List (View.Piece (Elt F) S1x1x512 .f32)), y ∈ pc.1.set :=
  View.cover_of_tiled [⟨Rect.unit (s := S1x1x512) ![0, 0, 0] S1x1x512.size inb_S1x1x512_S1x1x512_0_0_0, w⟩] S1x1x512.size (by rfl) y

/-- One store through the whole rectangle of a [1, 1, 2048] buffer covers every index of it. -/
theorem cover_z2 (w : Vec F S1x1x2048 .f32) (y : S1x1x2048.Idx) :
    ∃ pc ∈ ([⟨Rect.unit (s := S1x1x2048) ![0, 0, 0] S1x1x2048.size inb_S1x1x2048_S1x1x2048_0_0_0, w⟩] : List (View.Piece (Elt F) S1x1x2048 .f32)), y ∈ pc.1.set :=
  View.cover_of_tiled [⟨Rect.unit (s := S1x1x2048) ![0, 0, 0] S1x1x2048.size inb_S1x1x2048_S1x1x2048_0_0_0, w⟩] S1x1x2048.size (by rfl) y

/-! ## The body at a first tile of a batch (g = 0) and at a later tile (g > 0) -/

set_option maxHeartbeats 1000000 in
/-- At the first tile of a batch the first branch is taken and the second is not: the body leaves the tile's least
    distance per ground-truth point in the first output buffer and, whatever the second held, the tile's least distance
    per predicted point in it; the input buffers keep their blocks. -/
theorem sound_kernel_A (c : Dev nD) (i : grid0.Coords)
    (arg2 : Memref sig .tc .vmem S1x3x2048 .f32) (harg2 : arg2.IsWhole) (arg3 : Memref sig .tc .vmem S1x3x512 .f32) (harg3 : arg3.IsWhole)
    (arg4 : Memref sig .tc .vmem S1x1x512 .f32) (harg4 : arg4.IsWhole) (arg5 : Memref sig .tc .vmem S1x1x2048 .f32) (harg5 : arg5.IsWhole)
    (hc1 : k0_cond1 i = 1#1) (hc2 : ¬ k0_cond2 i = 1#1)
    (x0 : Vec F S1x3x2048 .f32) (x1 : Vec F S1x3x512 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay3 x0 x1) ∗ owns (c : Thread nD τ) arg5 fullShare (k0_pay4 x0 x1)) -∗ K ⟨⟩))
      ⊢ wp frame (wpE (defs₀ (F := F)) Variants.none c none) Set.univ (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (cover_z _), View.canon_unit_zero off0, View.readAt_eq_ld, View.readAt_eq_ld,
      harg2.read_unread, harg3.read_unread, View.ld_unit_zero off0, View.ld_unit_zero off0]
  · iexists _; isplitr
    swap; · iexact H3
    ipureintro
    rw [View.read_writes_eq_canon _ _ _ (cover_z2 _), View.canon_unit_zero off0, View.readAt_eq_ld, View.readAt_eq_ld,
      harg2.read_unread, harg3.read_unread, View.ld_unit_zero off0, View.ld_unit_zero off0]

set_option maxHeartbeats 1000000 in
/-- At a later tile of a batch the second branch is taken and the first is not: the first output buffer gets the tile's
    least distance per ground-truth point, and the second, holding `xo`, gets the minimum of `xo` and the tile's least
    distance per predicted point. -/
theorem sound_kernel_B (c : Dev nD) (i : grid0.Coords)
    (arg2 : Memref sig .tc .vmem S1x3x2048 .f32) (harg2 : arg2.IsWhole) (arg3 : Memref sig .tc .vmem S1x3x512 .f32) (harg3 : arg3.IsWhole)
    (arg4 : Memref sig .tc .vmem S1x1x512 .f32) (harg4 : arg4.IsWhole) (arg5 : Memref sig .tc .vmem S1x1x2048 .f32) (harg5 : arg5.IsWhole)
    (hc1 : ¬ k0_cond1 i = 1#1) (hc2 : k0_cond2 i = 1#1)
    (x0 : Vec F S1x3x2048 .f32) (x1 : Vec F S1x3x512 .f32) (xo : Vec F S1x1x2048 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xo
        ∗ (iprop(owns (c : Thread nD τ) arg2 fullShare x0 ∗ owns (c : Thread nD τ) arg3 fullShare x1
            ∗ owns (c : Thread nD τ) arg4 fullShare (k0_pay3 x0 x1) ∗ owns (c : Thread nD τ) arg5 fullShare (k0_pay5 x0 x1 xo)) -∗ K ⟨⟩))
      ⊢ wp frame (wpE (defs₀ (F := F)) Variants.none c none) Set.univ (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (cover_z _), View.canon_unit_zero off0, View.readAt_eq_ld, View.readAt_eq_ld,
      harg2.read_unread, harg3.read_unread, View.ld_unit_zero off0, View.ld_unit_zero off0]
  · iexists _; isplitr
    swap; · iexact H3
    ipureintro
    rw [View.read_writes_eq_canon _ _ _ (cover_z2 _), View.canon_unit_zero off0, View.readAt_eq_ld, View.readAt_eq_ld, View.readAt_eq_ld,
      harg2.read_unread, harg3.read_unread, harg5.read_unread, View.ld_unit_zero off0, View.ld_unit_zero off0, View.ld_unit_zero off0]

end Cert.Proof.KI

end
-- ==== Proof.KI.Body.lean ====
/-
  The pipeline's proof data, the body obligation, the run and the frame, for every reading of the floats.

  The grid is 16 batches × 4 tiles, tile fastest: point `t` is batch `t / 4`, tile `t % 4`. The first output's block
  moves at every point and is written back at every point. The second output's block is the batch's and stays in its
  staging buffer over the batch's four points; it is written back after the fourth. So what that buffer holds after
  point `t` is a running minimum (`z2At`): at a first tile the tile's least distance per predicted point, at a later
  tile the minimum of that and what the point before left.
-/
import proofs.«138069_j26259430047858_1_alg».proof.Proof.KI.Run

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branches over the grid -/

/-- The first branch is taken exactly at a batch's first tile. -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)

/-- The second branch is taken exactly at the other tiles. -/
theorem hcond2 : ∀ t : Fin cfg0.N, k0_cond2 (grid0.coords t) = 1#1 ↔ ¬t.val % 4 = 0 :=
  (by decide +kernel : ∀ t : Fin grid0.N, k0_cond2 (grid0.coords t) = 1#1 ↔ ¬t.val % 4 = 0)

/-- One of the two branches is taken at every coordinate, so the second output's window is never idle. -/
theorem live3 : ∀ i : grid0.Coords, cfg0.idle 3 i = false := by decide +kernel

/-! ## What the second output's buffer holds after each point -/

/-- The running minimum per predicted point after the body at position `n`. -/
def z2At (c : Dev nD) : (n : ℕ) → n < cfg0.N → Vec F S1x1x2048 .f32
  | 0, hn => k0_pay4 (iblk m c 0 ⟨0, hn⟩) (iblk m c 1 ⟨0, hn⟩)
  | n + 1, hn =>
    if (n + 1) % 4 = 0 then k0_pay4 (iblk m c 0 ⟨n + 1, hn⟩) (iblk m c 1 ⟨n + 1, hn⟩)
    else k0_pay5 (iblk m c 0 ⟨n + 1, hn⟩) (iblk m c 1 ⟨n + 1, hn⟩) (z2At c n (Nat.lt_of_succ_lt hn))

/-- At a batch's first tile: the tile's own minimum. -/
theorem z2At_A (c : Dev nD) (t : Fin cfg0.N) (h0 : t.val % 4 = 0) :
    z2At m c t.val t.isLt = k0_pay4 (iblk m c 0 t) (iblk m c 1 t) := by
  obtain ⟨n, hn⟩ := t
  cases n with
  | zero => exact rfl
  | succ n => exact (if_pos h0).trans rfl

/-- At a later tile: the minimum with what the point before left. -/
theorem z2At_B (c : Dev nD) (t : Fin cfg0.N) (h0 : ¬t.val % 4 = 0) :
    z2At m c t.val t.isLt
      = k0_pay5 (iblk m c 0 t) (iblk m c 1 t) (z2At m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- On core `c`: the arrays as the region finds them; after the body at point `t` each input's buffer at its block, the
    first output's at the tile's least distance per ground-truth point, the second's at the running minimum; the class
    invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (iblk m c 0 t) (iblk m c 1 t)
    | ⟨3, _⟩ => z2At m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay3 (iblk m c 0 t) (iblk m c 1 t) := by dsimp only [dats]
theorem after0_3 (c : Dev nD) (t : Fin cfg0.N) : (dats m 0 c).after 3 t = z2At m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a later tile the second output's buffer holds what the body left at the point before: the point is not the
    first, the buffer is written back only after a batch's last tile, the window is live and uncut. -/
theorem before0_3_B (c : Dev nD) (t : Fin cfg0.N) (h0 : ¬t.val % 4 = 0) (d) :
    (dats m 0 c).before 3 t d = z2At m c (t.val - 1) (Nat.lt_of_le_of_lt (Nat.sub_le _ _) t.isLt) := by
  rw [Dat.before_out_kept _ 3 rfl t (by omega)
    (Bool.eq_false_iff.mpr fun h => by have := (flush0_3 _).mp h; dsimp only at this; omega)
    live3 (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 800000 in
/-- The body at any point: the inputs' buffers hold their blocks; the point is a batch's first tile or a later one, and
    at a later one the second output's buffer holds the running minimum so far; the matching run applies; the invariant
    and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 4 = 0
  · rw [z2At_A m c t h0]
    iintro ⟨HΦ, Ho, ⟨%d0, H0⟩, ⟨%d1, H1⟩, ⟨%d2, H2⟩, ⟨%d3, H3⟩⟩
    iapply (sound_kernel_A c (grid0.coords t) _ _ _ _ _ _ _ _ ((hcond1 t).mpr h0) (fun h => (hcond2 t).mp h h0)
      (iblk m c 0 t) (iblk m c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [z2At_B m c t h0]
    simp only [before0_3_B m c t h0]
    iintro ⟨HΦ, Ho, ⟨%d0, H0⟩, ⟨%d1, H1⟩, ⟨%d2, H2⟩, ⟨%d3, H3⟩⟩
    iapply (sound_kernel_B c (grid0.coords t) _ _ _ _ _ _ _ _ (fun h => h0 ((hcond1 t).mp h)) ((hcond2 t).mpr h0)
      (iblk m c 0 t) (iblk m c 1 t) _ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  rw [live3 (cfg0.grid.coords t)]
  exact sound_body m c t

/-! ## The run and the frame -/

set_option backward.isDefEq.respectTransparency.types false in
/-- From any memory with zero counters every weakly fair execution of the program terminates, and every final state has
    each array of the pipeline at what the library computes from the proof data, the later host lines run over them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Proof.KI

end
-- ==== Proof.Spec.lean ====
/-
  The mathematics both programs compute, with no program in sight.

  Two point clouds `P`, `G` of 16 batches, 2048 points each, three coordinates per point (coordinate-major).
  `dist P G b n m` is the Euclidean distance between predicted point `n` and ground-truth point `m` of batch `b`,
  through the expansion |p|² + |g|² − 2·(p·g), clamped at zero before the root. `nearestPred` takes, for each
  ground-truth point, the least distance over the predicted points; `nearestGt` the other way round. The loss is
  the sum of each array divided by 16·2048, added (`lossTail`).

  `tileDist` is the same distance read off one batch's block of predicted points and one tile of 512 ground-truth
  points: what one grid point of the kernel sees.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- A point cloud: batch, coordinate, point. -/
abbrev Cloud : Shape := ⟨3, ![16, 3, 2048]⟩
/-- One value per batch and point. -/
abbrev PerPoint : Shape := ⟨2, ![16, 2048]⟩
/-- A scalar. -/
abbrev Scal : Shape := ⟨0, ![]⟩
/-- One batch's predicted points as the kernel stages them, and one tile of ground-truth points. -/
abbrev PredBlk : Shape := ⟨3, ![1, 3, 2048]⟩
abbrev GtTile : Shape := ⟨3, ![1, 3, 512]⟩

/-- The distance of predicted point `n` and ground-truth point `m` in batch `b`. -/
def dist (P G : Cloud.Idx → EReal) (b : Fin 16) (n m : Fin 2048) : EReal :=
  Ideal.sqrt (max (((∑ d : Fin 3, P (ix3 b d n) * P (ix3 b d n)) + (∑ d : Fin 3, G (ix3 b d m) * G (ix3 b d m)))
      - Ideal.ofBits .f32 0x40000000#32 * (∑ d : Fin 3, P (ix3 b d n) * G (ix3 b d m)))
    (Ideal.ofBits .f32 0x00000000#32))

/-- For each ground-truth point, the least distance to a predicted point (from +∞). -/
def nearestPred (P G : Cloud.Idx → EReal) : PerPoint.Idx → EReal := fun i =>
  (Finset.univ : Finset (Fin 2048)).fold min (Ideal.ofBits .f32 0x7F800000#32) fun n => dist P G (i 0) n (i 1)

/-- For each predicted point, the least distance to a ground-truth point (from +∞). -/
def nearestGt (P G : Cloud.Idx → EReal) : PerPoint.Idx → EReal := fun i =>
  (Finset.univ : Finset (Fin 2048)).fold min (Ideal.ofBits .f32 0x7F800000#32) fun m => dist P G (i 0) (i 1) m

theorem nearestPred_ix2 (P G : Cloud.Idx → EReal) (b : Fin 16) (m : Fin 2048) :
    nearestPred P G (ix2 b m)
      = (Finset.univ : Finset (Fin 2048)).fold min (Ideal.ofBits .f32 0x7F800000#32) fun n => dist P G b n m := rfl

theorem nearestGt_ix2 (P G : Cloud.Idx → EReal) (b : Fin 16) (n : Fin 2048) :
    nearestGt P G (ix2 b n)
      = (Finset.univ : Finset (Fin 2048)).fold min (Ideal.ofBits .f32 0x7F800000#32) fun m => dist P G b n m := rfl

/-- The same distance off one batch's block `X` of predicted points and one tile `Y` of 512 ground-truth points. -/
def tileDist (X : PredBlk.Idx → EReal) (Y : GtTile.Idx → EReal) (n : Fin 2048) (j : Fin 512) : EReal :=
  Ideal.sqrt (max (((∑ d : Fin 3, X (ix3 0 d n) * X (ix3 0 d n)) + (∑ d : Fin 3, Y (ix3 0 d j) * Y (ix3 0 d j)))
      - Ideal.ofBits .f32 0x40000000#32 * (∑ d : Fin 3, X (ix3 0 d n) * Y (ix3 0 d j)))
    (Ideal.ofBits .f32 0x00000000#32))

/-- The least of a tile's distances for predicted point `n` (from +∞). -/
def tileMinOverGt (X : PredBlk.Idx → EReal) (Y : GtTile.Idx → EReal) (n : Fin 2048) : EReal :=
  (Finset.univ : Finset (Fin 512)).fold min (Ideal.ofBits .f32 0x7F800000#32) fun j => tileDist X Y n j

/-- The least of a tile's distances for ground-truth point `j` of the tile (from +∞). -/
def tileMinOverPred (X : PredBlk.Idx → EReal) (Y : GtTile.Idx → EReal) (j : Fin 512) : EReal :=
  (Finset.univ : Finset (Fin 2048)).fold min (Ideal.ofBits .f32 0x7F800000#32) fun n => tileDist X Y n j

/-- Ground-truth point `j` of tile `g`, as a point of the batch: tiles are 512 consecutive points. -/
def tileIdx (g : Fin 4) (j : Fin 512) : Fin 2048 := ⟨512 * g.val + j.val, by have := g.isLt; have := j.isLt; omega⟩

/-- The host lines both programs end with: each array summed from zero, divided by 16·2048, the two added. The shape
    facts are arguments so that each program's own witnesses fit (they are propositions). -/
def lossTail (h : PerPoint.ReducesTo [0, 1] Scal) (h0 : 0 < Scal.numel) (a b : FVec Ideal PerPoint .f32) : FVec Ideal Scal .f32 :=
  addf (Host.divf (Host.reduceAdd a (constant (F := Ideal) Scal .f32 0x00000000#32) h h0) (constant (F := Ideal) Scal .f32 0x47000000#32))
    (Host.divf (Host.reduceAdd b (constant (F := Ideal) Scal .f32 0x00000000#32) h h0) (constant (F := Ideal) Scal .f32 0x47000000#32))

end Cert.Chamfer

end
-- ==== Proof.Payload.lean ====
/-
  What one grid point of the kernel stores, read at an index over the extended reals: the tile's least distance per
  ground-truth point, the tile's least distance per predicted point, and the running minimum with what the buffer held.
-/
import proofs.«138069_j26259430047858_1_alg».proof.Proof.Gen.KernelIdeal.Skeleton
import proofs.«138069_j26259430047858_1_alg».proof.Proof.Spec
import Idealize.ShloMosaic.Lib.ValueLayout

noncomputable section

namespace Cert.Chamfer.Payload

open Idealize.ShloMosaic Idealize.ShloMosaic.ValueIdx Cert.Chamfer
open Cert.KernelIdeal Cert.KernelIdeal.Gen

/-! ## Layout operations at the kernel's small shapes, by coordinates -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array cast to `[1, 1, a]` reads, at `(u, v, i)`, the operand at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp only [Nat.zero_mul, Nat.zero_add])

/-- An `[a, 1]` array broadcast to `[a, b]` reads, at `(p, c)`, the operand's one column at `p`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

end Layout

/-! ## The reductions over one axis of a matrix, by coordinates -/

/-- A minimum reduction over one axis, read at the extended reals: the fold of `min` from the accumulator's value over
    that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction (F := Ideal) .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum over the rows of a `[3, m]` matrix, at column `c`. -/
theorem sum_rows_apply {m : ℕ} (v : FVec Ideal ⟨2, ![3, m]⟩ .f32) (h : (⟨2, ![3, m]⟩ : Shape).Reduces [0] ⟨1, ![m]⟩)
    (hφ : FKind.Formats .f32) (hacc : (0x00000000#32 : BitVec 32) = FKind.add.neutral .f32 hφ) (c : Fin m) :
    multiReduction (F := Ideal) .add [0] ⟨1, ![m]⟩ v 0x00000000#32 h hφ hacc (ix1 c) = ∑ d : Fin 3, v (ix2 d c) := by
  refine (Ideal.multiReduction_add_single v _ h hφ hacc (ix1 c)).trans ?_
  refine Finset.sum_congr rfl fun k _ => congrArg v (funext fun ax => Fin.ext ?_)
  match ax with
  | ⟨0, _⟩ => rfl
  | ⟨1, _⟩ => rfl

/-- The minimum over the columns of an `[a, b]` matrix from +∞, at row `r`. -/
theorem min_cols_apply {a b : ℕ} (v : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (r : Fin a) :
    multiReduction (F := Ideal) .minimumf [1] ⟨1, ![a]⟩ v 0x7F800000#32 h hφ hacc (ix1 r)
      = (Finset.univ : Finset (Fin b)).fold min (Ideal.ofBits .f32 0x7F800000#32) fun c => v (ix2 r c) := by
  refine (multiReduction_minimumf_single v _ h hφ hacc (ix1 r)).trans ?_
  refine congrArg (Finset.fold min _ · _) (funext fun k => congrArg v (funext fun ax => Fin.ext ?_))
  match ax with
  | ⟨0, _⟩ => rfl
  | ⟨1, _⟩ => rfl

/-- The minimum over the rows of an `[a, b]` matrix from +∞, at column `c`. -/
theorem min_rows_apply {a b : ℕ} (v : FVec Ideal ⟨2, ![a, b]⟩ .f32) (h : (⟨2, ![a, b]⟩ : Shape).Reduces [0] ⟨1, ![b]⟩)
    (hφ : FKind.Formats .f32) (hacc : (0x7F800000#32 : BitVec 32) = FKind.minimumf.neutral .f32 hφ) (c : Fin b) :
    multiReduction (F := Ideal) .minimumf [0] ⟨1, ![b]⟩ v 0x7F800000#32 h hφ hacc (ix1 c)
      = (Finset.univ : Finset (Fin a)).fold min (Ideal.ofBits .f32 0x7F800000#32) fun r => v (ix2 r c) := by
  refine (multiReduction_minimumf_single v _ h hφ hacc (ix1 c)).trans ?_
  refine congrArg (Finset.fold min _ · _) (funext fun k => congrArg v (funext fun ax => Fin.ext ?_))
  match ax with
  | ⟨0, _⟩ => rfl
  | ⟨1, _⟩ => rfl

/-! ## The cross products: the matrix product of the transposed block and the tile -/

theorem lhs_cross_0 (i : S2048x512.Idx) (q : dot_S2048x3_S3x512_S2048x512_1_0_0_1_n_n.contr.Idx) :
    (dot_S2048x3_S3x512_S2048x512_1_0_0_1_n_n.lhsIdx i q 0).val = (i 0).val := by
  unfold DotDims.lhsIdx
  rw [dif_neg (show ¬(0 : Fin S2048x3.rank) ∈ dot_S2048x3_S3x512_S2048x512_1_0_0_1_n_n.lhsBatch by decide),
    dif_pos (show (0 : Fin S2048x3.rank) ∈ dot_S2048x3_S3x512_S2048x512_1_0_0_1_n_n.lhsNonContracting by decide)]
  rfl
theorem lhs_cross_1 (i : S2048x512.Idx) (q : dot_S2048x3_S3x512_S2048x512_1_0_0_1_n_n.contr.Idx) :
    (dot_S2048x3_S3x512_S2048x512_1_0_0_1_n_n.lhsIdx i q 1).val = (q ⟨0, by decide⟩).val :=
  dot_S2048x3_S3x512_S2048x512_1_0_0_1_n_n.lhsIdx_val_of_single rfl i q
theorem rhs_cross_0 (i : S2048x512.Idx) (q : dot_S2048x3_S3x512_S2048x512_1_0_0_1_n_n.contr.Idx) :
    (dot_S2048x3_S3x512_S2048x512_1_0_0_1_n_n.rhsIdx i q 0).val = (q ⟨0, by decide⟩).val :=
  dot_S2048x3_S3x512_S2048x512_1_0_0_1_n_n.rhsIdx_val_of_single rfl i q
theorem rhs_cross_1 (i : S2048x512.Idx) (q : dot_S2048x3_S3x512_S2048x512_1_0_0_1_n_n.contr.Idx) :
    (dot_S2048x3_S3x512_S2048x512_1_0_0_1_n_n.rhsIdx i q 1).val = (i 1).val := by
  unfold DotDims.rhsIdx
  rw [dif_neg (show ¬(1 : Fin S3x512.rank) ∈ dot_S2048x3_S3x512_S2048x512_1_0_0_1_n_n.rhsBatch by decide),
    dif_pos (show (1 : Fin S3x512.rank) ∈ dot_S2048x3_S3x512_S2048x512_1_0_0_1_n_n.rhsNonContracting by decide)]
  rfl

/-- The product of a `[2048, 3]` and a `[3, 512]` matrix into a zero accumulator, at `(n, j)`: the sum over the three
    coordinates of the products. -/
theorem cross_apply (A : FVec Ideal S2048x3 .f32) (B : FVec Ideal S3x512 .f32) (n : Fin 2048) (j : Fin 512) :
    matmul (F := Ideal) dot_S2048x3_S3x512_S2048x512_1_0_0_1_n_n none A B (constant (F := Ideal) S2048x512 .f32 0x00000000#32) (ix2 n j)
      = ∑ d : Fin 3, A (ix2 n d) * B (ix2 d j) := by
  refine (Ideal.matmul_constant_zero_apply dot_S2048x3_S3x512_S2048x512_1_0_0_1_n_n none A B (ix2 n j)).trans ?_
  rw [← Equiv.sum_comp (contrEquiv1 dot_S2048x3_S3x512_S2048x512_1_0_0_1_n_n 3 rfl rfl).symm]
  refine Finset.sum_congr rfl fun k _ => ?_
  have hk := contrEquiv1_symm_val dot_S2048x3_S3x512_S2048x512_1_0_0_1_n_n 3 rfl rfl k
  have el : dot_S2048x3_S3x512_S2048x512_1_0_0_1_n_n.lhsIdx (ix2 n j)
      ((contrEquiv1 dot_S2048x3_S3x512_S2048x512_1_0_0_1_n_n 3 rfl rfl).symm k) = ix2 n k := funext fun a => Fin.ext (by
    match a with
    | ⟨0, _⟩ => exact lhs_cross_0 _ _
    | ⟨1, _⟩ => exact (lhs_cross_1 _ _).trans hk)
  have er : dot_S2048x3_S3x512_S2048x512_1_0_0_1_n_n.rhsIdx (ix2 n j)
      ((contrEquiv1 dot_S2048x3_S3x512_S2048x512_1_0_0_1_n_n 3 rfl rfl).symm k) = ix2 k j := funext fun a => Fin.ext (by
    match a with
    | ⟨0, _⟩ => exact (rhs_cross_0 _ _).trans hk
    | ⟨1, _⟩ => exact rhs_cross_1 _ _)
  rw [el, er]

/-! ## The distance matrix and its two minima -/

/-- A square root at an index is the root of the element. -/
theorem sqrt_apply {s : Shape} {φ : FTy} (a : FVec Ideal s φ) (i : s.Idx) : sqrt a i = Ideal.sqrt (a i) := rfl

/-- The squared norm of predicted point `n`, as the kernel spreads it over the tile's columns. -/
theorem normX_apply (X : Vec Ideal S1x3x2048 .f32) (hφ : FKind.Formats .f32)
    (hacc : (0x00000000#32 : BitVec 32) = FKind.add.neutral .f32 hφ) (n : Fin 2048) (j : Fin 512) :
    broadcastTo S2048x512
        (shapeCast S2048x1
          (multiReduction (F := Ideal) .add [0] S2048
            (mulf (shapeCast S3x2048 X shapeCasts_S1x3x2048_S3x2048) (shapeCast S3x2048 X shapeCasts_S1x3x2048_S3x2048))
            0x00000000#32 reduces_S3x2048_S2048 hφ hacc)
          shapeCasts_S2048_S2048x1)
        broadcasts_S2048x1_S2048x512 (ix2 n j)
      = ∑ d : Fin 3, X (ix3 0 d n) * X (ix3 0 d n) := by
  refine (broadcastTo_a1_ab_apply (by decide) _ _ n j).trans ?_
  refine (shapeCast_a_a1_apply _ _ n 0).trans ?_
  refine (sum_rows_apply _ _ hφ hacc n).trans ?_
  refine Finset.sum_congr rfl fun d _ => ?_
  show shapeCast S3x2048 X shapeCasts_S1x3x2048_S3x2048 (ix2 d n) * shapeCast S3x2048 X shapeCasts_S1x3x2048_S3x2048 (ix2 d n) = _
  rw [shapeCast_1ab_ab_apply]

/-- The squared norm of the tile's ground-truth point `j`, as the kernel spreads it over the rows. -/
theorem normY_apply (Y : Vec Ideal S1x3x512 .f32) (hφ : FKind.Formats .f32)
    (hacc : (0x00000000#32 : BitVec 32) = FKind.add.neutral .f32 hφ) (n : Fin 2048) (j : Fin 512) :
    broadcastTo S2048x512
        (shapeCast S1x512
          (multiReduction (F := Ideal) .add [0] S512
            (mulf (shapeCast S3x512 Y shapeCasts_S1x3x512_S3x512) (shapeCast S3x512 Y shapeCasts_S1x3x512_S3x512))
            0x00000000#32 reduces_S3x512_S512 hφ hacc)
          shapeCasts_S512_S1x512)
        broadcasts_S1x512_S2048x512 (ix2 n j)
      = ∑ d : Fin 3, Y (ix3 0 d j) * Y (ix3 0 d j) := by
  refine (broadcastTo_1b_ab_apply _ _ n j).trans ?_
  refine (shapeCast_a_1a_apply _ _ 0 j).trans ?_
  refine (sum_rows_apply _ _ hφ hacc j).trans ?_
  refine Finset.sum_congr rfl fun d _ => ?_
  show shapeCast S3x512 Y shapeCasts_S1x3x512_S3x512 (ix2 d j) * shapeCast S3x512 Y shapeCasts_S1x3x512_S3x512 (ix2 d j) = _
  rw [shapeCast_1ab_ab_apply]

/-- The inner product of predicted point `n` and the tile's ground-truth point `j`, as the kernel's matrix product. -/
theorem crossXY_apply (X : Vec Ideal S1x3x2048 .f32) (Y : Vec Ideal S1x3x512 .f32) (n : Fin 2048) (j : Fin 512) :
    matmul (F := Ideal) dot_S2048x3_S3x512_S2048x512_1_0_0_1_n_n none
        (transpose S2048x3 [1, 0] (shapeCast S3x2048 X shapeCasts_S1x3x2048_S3x2048 : FVec Ideal S3x2048 .f32)
          transposes_S3x2048_p1_0_S2048x3 : FVec Ideal S2048x3 .f32)
        (shapeCast S3x512 Y shapeCasts_S1x3x512_S3x512 : FVec Ideal S3x512 .f32)
        (constant (F := Ideal) S2048x512 .f32 0x00000000#32) (ix2 n j)
      = ∑ d : Fin 3, X (ix3 0 d n) * Y (ix3 0 d j) := by
  refine (cross_apply _ _ n j).trans ?_
  refine Finset.sum_congr rfl fun d _ => ?_
  rw [transpose_ix2_apply, shapeCast_1ab_ab_apply, shapeCast_1ab_ab_apply]

theorem pay1_apply (X : Vec Ideal S1x3x2048 .f32) (Y : Vec Ideal S1x3x512 .f32) (n : Fin 2048) (j : Fin 512) :
    k0_pay1 (F := Ideal) X Y (ix2 n j) = tileDist X Y n j := by
  unfold k0_pay1 tileDist
  dsimp only
  show Ideal.sqrt (max ((_ + _) - Ideal.ofBits .f32 0x40000000#32 * _) (Ideal.ofBits .f32 0x00000000#32)) = _
  exact congrArg Ideal.sqrt (congrArg (max · _) (congrArg₂ (· - ·)
    (congrArg₂ (· + ·) (normX_apply X _ _ n j) (normY_apply Y _ _ n j))
    (congrArg (_ * ·) (crossXY_apply X Y n j))))

/-- The tile's least distance for predicted point `n`. -/
theorem pay2_apply (X : Vec Ideal S1x3x2048 .f32) (Y : Vec Ideal S1x3x512 .f32) (n : Fin 2048) :
    k0_pay2 (F := Ideal) X Y (ix1 n) = tileMinOverGt X Y n := by
  unfold k0_pay2 tileMinOverGt
  refine (min_cols_apply (k0_pay1 (F := Ideal) X Y) _ _ _ n).trans ?_
  exact congrArg (Finset.fold min _ · _) (funext fun j => pay1_apply X Y n j)

theorem pay3_apply (X : Vec Ideal S1x3x2048 .f32) (Y : Vec Ideal S1x3x512 .f32) (j : Fin 512) :
    k0_pay3 (F := Ideal) X Y (ix3 0 0 j) = tileMinOverPred X Y j := by
  unfold k0_pay3 tileMinOverPred
  refine (shapeCast_a_11a_apply _ _ 0 0 j).trans ?_
  refine (min_rows_apply (k0_pay1 (F := Ideal) X Y) _ _ _ j).trans ?_
  exact congrArg (Finset.fold min _ · _) (funext fun n => pay1_apply X Y n j)

theorem pay4_apply (X : Vec Ideal S1x3x2048 .f32) (Y : Vec Ideal S1x3x512 .f32) (n : Fin 2048) :
    k0_pay4 (F := Ideal) X Y (ix3 0 0 n) = tileMinOverGt X Y n := by
  unfold k0_pay4
  exact (shapeCast_a_11a_apply _ _ 0 0 n).trans (pay2_apply X Y n)

theorem pay5_apply (X : Vec Ideal S1x3x2048 .f32) (Y : Vec Ideal S1x3x512 .f32) (prev : Vec Ideal S1x1x2048 .f32) (n : Fin 2048) :
    k0_pay5 (F := Ideal) X Y prev (ix3 0 0 n) = min (prev (ix3 0 0 n)) (tileMinOverGt X Y n) := by
  unfold k0_pay5
  exact congrArg₂ min (congrFun (shapeCast_self prev _) _)
    ((shapeCast_a_11a_apply _ _ 0 0 n).trans (pay2_apply X Y n))

end Cert.Chamfer.Payload

end
-- ==== Proof.MinBlocks.lean ====
/-
  A minimum over 2048 points, taken from +∞, is the minimum of the four minima over consecutive blocks of 512, each
  taken from +∞, nested to the left as a running minimum takes them.
-/
import proofs.«138069_j26259430047858_1_alg».proof.Proof.Spec

noncomputable section

namespace Cert.Chamfer

open Idealize.ShloMosaic

/-- The pattern of +∞ is the top of the extended reals. -/
theorem ofBits_posInf_eq_top : Ideal.ofBits .f32 0x7F800000#32 = (⊤ : EReal) := by
  simp [Ideal.ofBits, Ideal.ieee]

/-- A fold of `min` from +∞ is the infimum of the family. -/
theorem fold_min_posInf_eq_inf {ι : Type} (s : Finset ι) (f : ι → EReal) :
    s.fold min (Ideal.ofBits .f32 0x7F800000#32) f = s.inf f := by
  rw [ofBits_posInf_eq_top]
  rfl

/-- Every point of the batch is a point of one of the four tiles. -/
theorem tileIdx_div_mod (n : Fin 2048) :
    tileIdx ⟨n.val / 512, by have := n.isLt; omega⟩ ⟨n.val % 512, Nat.mod_lt _ (by norm_num)⟩ = n := by
  apply Fin.ext
  simp only [tileIdx]
  omega

/-- The left-nested minimum of four values is below each of them. -/
theorem min4_le (F : Fin 4 → EReal) (g : Fin 4) : min (min (min (F 0) (F 1)) (F 2)) (F 3) ≤ F g := by
  match g with
  | ⟨0, _⟩ => exact le_trans (min_le_left _ _) (le_trans (min_le_left _ _) (min_le_left _ _))
  | ⟨1, _⟩ => exact le_trans (min_le_left _ _) (le_trans (min_le_left _ _) (min_le_right _ _))
  | ⟨2, _⟩ => exact le_trans (min_le_left _ _) (min_le_right _ _)
  | ⟨3, _⟩ => exact min_le_right _ _

theorem fold_min_four (f : Fin 2048 → EReal) :
    min (min (min
        ((Finset.univ : Finset (Fin 512)).fold min (Ideal.ofBits .f32 0x7F800000#32) fun j => f (tileIdx 0 j))
        ((Finset.univ : Finset (Fin 512)).fold min (Ideal.ofBits .f32 0x7F800000#32) fun j => f (tileIdx 1 j)))
        ((Finset.univ : Finset (Fin 512)).fold min (Ideal.ofBits .f32 0x7F800000#32) fun j => f (tileIdx 2 j)))
        ((Finset.univ : Finset (Fin 512)).fold min (Ideal.ofBits .f32 0x7F800000#32) fun j => f (tileIdx 3 j))
      = (Finset.univ : Finset (Fin 2048)).fold min (Ideal.ofBits .f32 0x7F800000#32) f := by
  simp only [fold_min_posInf_eq_inf]
  let F : Fin 4 → EReal := fun g => (Finset.univ : Finset (Fin 512)).inf fun j => f (tileIdx g j)
  show min (min (min (F 0) (F 1)) (F 2)) (F 3) = _
  apply le_antisymm
  · apply Finset.le_inf
    intro n _
    have h1 := min4_le F ⟨n.val / 512, by have := n.isLt; omega⟩
    have h2 : F ⟨n.val / 512, by have := n.isLt; omega⟩ ≤ f n := by
      have h3 := Finset.inf_le (f := fun j => f (tileIdx ⟨n.val / 512, by have := n.isLt; omega⟩ j))
        (Finset.mem_univ (⟨n.val % 512, Nat.mod_lt _ (by norm_num)⟩ : Fin 512))
      simp only [tileIdx_div_mod] at h3
      exact h3
    exact le_trans h1 h2
  · have h : ∀ g : Fin 4, (Finset.univ : Finset (Fin 2048)).inf f ≤ F g := fun g =>
      Finset.le_inf fun j _ => Finset.inf_le (Finset.mem_univ _)
    exact le_min (le_min (le_min (h 0) (h 1)) (h 2)) (h 3)

end Cert.Chamfer

end
-- ==== Proof.KI.Value.lean ====
/-
  The idealized kernel's two result arrays, and its result, as the specification's.

  Point `t` of the grid is batch `t / 4`, tile `t % 4`. Its block of predicted points is the batch's rows of the first
  argument; its tile of ground-truth points is points 512·(t % 4) … 512·(t % 4) + 511 of the batch's rows of the second.
  So the distances one point computes are `dist` at (batch, n, 512·tile + j), the block of the first result array it
  writes back is `nearestPred` there, and the running minimum in the second result array's buffer after a batch's
  fourth tile is the minimum over all 2048 ground-truth points: `nearestGt`. The host lines after the region are the
  same lines the reference ends with.
-/
import proofs.«138069_j26259430047858_1_alg».proof.Proof.KI.Body
import proofs.«138069_j26259430047858_1_alg».proof.Proof.Payload
import proofs.«138069_j26259430047858_1_alg».proof.Proof.MinBlocks
import Idealize.ShloMosaic.Lib.Pipeline.Value
import Idealize.ShloMosaic.Lib.StableHlo.Run

set_option maxRecDepth 16384

noncomputable section

namespace Cert.Proof.KIValue

open Cert.KernelIdeal Cert.KernelIdeal.Gen Cert.Proof.KI Cert.Chamfer
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The grid's points, and what each window's block index is there -/

/-- The two point clouds as the region finds them. -/
abbrev pred (c : Dev nD) : FVec Ideal S16x3x2048 .f32 := V m c main_arg0
abbrev gt (c : Dev nD) : FVec Ideal S16x3x2048 .f32 := V m c main_arg1

theorem N64 : cfg0.N = 64 := N_0

/-- The batch and the tile of a point. -/
def bOf (t : Fin cfg0.N) : Fin 16 := ⟨t.val / 4, by have h : t.val < 64 := lt_of_lt_of_eq t.isLt N_0; omega⟩
def gOf (t : Fin cfg0.N) : Fin 4 := ⟨t.val % 4, Nat.mod_lt _ (by decide)⟩

/-- The printed index maps, decided once over the grid: the batch on the leading axis of every window, the tile on the
    last axis of the ground-truth window and of the first result's. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = 0 ∧ win0_1.index t (2 : Fin 3) = t.val % 4
    ∧ win0_2.index t (0 : Fin 3) = t.val / 4 ∧ win0_2.index t (1 : Fin 3) = 0 ∧ win0_2.index t (2 : Fin 3) = t.val % 4
    ∧ win0_3.index t (0 : Fin 3) = t.val / 4 ∧ win0_3.index t (1 : Fin 3) = 0 ∧ win0_3.index t (2 : Fin 3) = 0 :=
  (by decide +kernel : ∀ t : Fin grid0.N, _)

/-! ## The blocks a point reads -/

/-- The block of predicted points at point `t` is the batch's rows of the first argument. -/
theorem pred_blk (c : Dev nD) (t : Fin cfg0.N) (d : Fin 3) (n : Fin 2048) :
    (iblk m c 0 t : Vec Ideal S1x3x2048 .f32) (ix3 0 d n) = pred m c (ix3 (bOf t) d n) := by
  obtain ⟨e0, e1, e2, -⟩ := idx_facts t
  unfold iblk
  rw [View.read_apply]
  show V m c main_arg0 _ = V m c main_arg0 _
  congr 1
  funext a; apply Fin.ext
  match a with
  | ⟨0, _⟩ => show win0_0.index t (0 : Fin 3) * 1 + 1 * 0 = t.val / 4; omega
  | ⟨1, _⟩ => show win0_0.index t (1 : Fin 3) * 3 + 1 * d.val = d.val; omega
  | ⟨2, _⟩ => show win0_0.index t (2 : Fin 3) * 2048 + 1 * n.val = n.val; omega

/-- The tile of ground-truth points at point `t` is points 512·tile + j of the batch's rows of the second argument. -/
theorem gt_blk (c : Dev nD) (t : Fin cfg0.N) (d : Fin 3) (j : Fin 512) :
    (iblk m c 1 t : Vec Ideal S1x3x512 .f32) (ix3 0 d j) = gt m c (ix3 (bOf t) d (tileIdx (gOf t) j)) := by
  obtain ⟨-, -, -, e3, e4, e5, -⟩ := idx_facts t
  unfold iblk
  rw [View.read_apply]
  show V m c main_arg1 _ = V m c main_arg1 _
  congr 1
  funext a; apply Fin.ext
  match a with
  | ⟨0, _⟩ => show win0_1.index t (0 : Fin 3) * 1 + 1 * 0 = t.val / 4; omega
  | ⟨1, _⟩ => show win0_1.index t (1 : Fin 3) * 3 + 1 * d.val = d.val; omega
  | ⟨2, _⟩ => show win0_1.index t (2 : Fin 3) * 512 + 1 * j.val = 512 * (t.val % 4) + j.val; omega

/-- So the distances a point computes are the specification's, at the batch and at point 512·tile + j. -/
theorem tileDist_blk (c : Dev nD) (t : Fin cfg0.N) (n : Fin 2048) (j : Fin 512) :
    tileDist (iblk m c 0 t : Vec Ideal S1x3x2048 .f32) (iblk m c 1 t : Vec Ideal S1x3x512 .f32) n j
      = Chamfer.dist (pred m c) (gt m c) (bOf t) n (tileIdx (gOf t) j) := by
  unfold tileDist Chamfer.dist
  simp only [pred_blk m c t, gt_blk m c t]

/-! ## The first result array: for each ground-truth point the least distance to a predicted point -/

/-- An index of a [1, 1, k] block is its last coordinate. -/
theorem idx1x1 {k : ℕ} (y : (⟨3, ![1, 1, k]⟩ : Shape).Idx) : y = ix3 0 0 (y 2) := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl

/-- What the first result array ends holding. -/
abbrev Zarr (c : Dev nD) : Buf (Elt Ideal) ((c : Thread nD τ).loc main_v0_0) := fun i =>
  nearestPred (pred m c) (gt m c) (ix2 (i 0 : Fin 16) (i 2 : Fin 2048))

/-- What point `t` leaves in the first output's buffer, at ground-truth point `j` of its tile: the least distance from
    point 512·tile + j of the batch to a predicted point. -/
theorem z_at (c : Dev nD) (t : Fin cfg0.N) (y : S1x1x512.Idx) :
    k0_pay3 (F := Ideal) (iblk m c 0 t) (iblk m c 1 t) y
      = nearestPred (pred m c) (gt m c) (ix2 (bOf t) (tileIdx (gOf t) (y 2))) := by
  obtain ⟨j, rfl⟩ : ∃ j : Fin 512, y = ix3 0 0 j := ⟨y 2, idx1x1 y⟩
  show k0_pay3 (F := Ideal) (iblk m c 0 t) (iblk m c 1 t) (ix3 0 0 j)
      = nearestPred (pred m c) (gt m c) (ix2 (bOf t) (tileIdx (gOf t) j))
  rw [Payload.pay3_apply, nearestPred_ix2]
  unfold tileMinOverPred
  exact congrArg (fun f => (Finset.univ : Finset (Fin 2048)).fold min (Ideal.ofBits .f32 0x7F800000#32) f)
    (funext fun n => tileDist_blk m c t n j)

/-- What point `t` writes back is block `t` of that array. -/
theorem flushed2_eq (c : Dev nD) (t : Fin cfg0.N) :
    (dats m 0 c).flushed 2 t = ((cfg0.win 2).blk t).view.read (Elt Ideal) (Zarr m c) := by
  show (cfg0.win 2).cut (grid0.coords t) ((dats m 0 c).after 2 t) = _
  rw [after0_2]
  obtain ⟨-, -, -, -, -, -, e6, e7, e8, -⟩ := idx_facts t
  funext y
  rw [View.read_apply]
  show k0_pay3 (F := Ideal) (iblk m c 0 t) (iblk m c 1 t) y = Zarr m c (((cfg0.win 2).blk t).view.emb y)
  rw [z_at m c t y]
  have hy0 : (y 0).val < 1 := (y 0).isLt
  have hy2 : (y 2).val < 512 := (y 2).isLt
  have h0 : ((((cfg0.win 2).blk t).view.emb y) 0 : Fin 16) = bOf t :=
    Fin.ext (by show win0_2.index t (0 : Fin 3) * 1 + 1 * (y 0).val = t.val / 4; omega)
  have h2 : ((((cfg0.win 2).blk t).view.emb y) 2 : Fin 2048) = tileIdx (gOf t) (y 2) :=
    Fin.ext (by show win0_2.index t (2 : Fin 3) * 512 + 1 * (y 2).val = 512 * (t.val % 4) + (y 2).val; omega)
  exact congrArg₂ (fun a b => nearestPred (pred m c) (gt m c) (ix2 a b)) h0.symm h2.symm

/-- An index of the array is in point `t`'s block iff each coordinate is in the block's range on its axis. -/
theorem mem_blk2 (t : Fin cfg0.N) (i : S16x1x2048.Idx) :
    i ∈ ((cfg0.win 2).blk t).view.set ↔ ∀ a : Fin 3, win0_2.index t a * S1x1x512.size a ≤ (i a).val
      ∧ (i a).val < win0_2.index t a * S1x1x512.size a + S1x1x512.size a := by
  show i ∈ ((View.whole main_v0_0).slice (win0_2.rect t)).set ↔ _
  rw [View.set_slice_whole, Rect.mem_set_unit]
  exact Iff.rfl

/-- Every index lies in the block of the point of its batch and its tile. -/
theorem cover2 (i : S16x1x2048.Idx) :
    ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 2048 := (i 2).isLt
  have hN : 4 * (i 0).val + (i 2).val / 512 < cfg0.N := by rw [N64]; omega
  obtain ⟨-, -, -, -, -, -, e6, e7, e8, -⟩ := idx_facts ⟨4 * (i 0).val + (i 2).val / 512, hN⟩
  refine ⟨⟨4 * (i 0).val + (i 2).val / 512, hN⟩, flush0_2 _, ?_⟩
  rw [mem_blk2]
  dsimp only at e6 e7 e8
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1 ≤ (i 1).val ∧ (i 1).val < win0_2.index _ (1 : Fin 3) * 1 + 1; omega
  | ⟨2, _⟩ => show win0_2.index _ (2 : Fin 3) * 512 ≤ (i 2).val ∧ (i 2).val < win0_2.index _ (2 : Fin 3) * 512 + 512; omega

/-- So the first result array ends holding the least distances to a predicted point. -/
theorem final2 (c : Dev nD) : (dats m 0 c).arrAt 2 cfg0.N = Zarr m c :=
  (dats m 0 c).arrAt_eq_of_cover 2 (Zarr m c) (fun t _ => flushed2_eq m c t) cover2

/-! ## The second result array: for each predicted point the least distance to a ground-truth point -/

/-- What the second result array ends holding. -/
abbrev Z2arr (c : Dev nD) : Buf (Elt Ideal) ((c : Thread nD τ).loc main_v0_1) := fun i =>
  nearestGt (pred m c) (gt m c) (ix2 (i 0 : Fin 16) (i 2 : Fin 2048))

/-- The least of the distances point `s` computes for predicted point `n`. -/
abbrev tileMin (c : Dev nD) (s : ℕ) (hs : s < cfg0.N) (n : Fin 2048) : EReal :=
  tileMinOverGt (iblk m c 0 ⟨s, hs⟩ : Vec Ideal S1x3x2048 .f32) (iblk m c 1 ⟨s, hs⟩ : Vec Ideal S1x3x512 .f32) n

/-- It is the least of the specification's distances over the tile's 512 ground-truth points. -/
theorem tileMin_eq (c : Dev nD) (s : ℕ) (hs : s < cfg0.N) (n : Fin 2048) :
    tileMin m c s hs n = (Finset.univ : Finset (Fin 512)).fold min (Ideal.ofBits .f32 0x7F800000#32)
      fun j => Chamfer.dist (pred m c) (gt m c) (bOf ⟨s, hs⟩) n (tileIdx (gOf ⟨s, hs⟩) j) := by
  unfold tileMin tileMinOverGt
  exact congrArg (fun f => (Finset.univ : Finset (Fin 512)).fold min (Ideal.ofBits .f32 0x7F800000#32) f)
    (funext fun j => tileDist_blk m c ⟨s, hs⟩ n j)

/-- The running minimum does not depend on how its position is written. -/
theorem z2At_congr (c : Dev nD) {a b : ℕ} (h : a = b) (ha : a < cfg0.N) (hb : b < cfg0.N) :
    z2At m c a ha = z2At m c b hb := by subst h; rfl

/-- At a batch's first tile the running minimum is the tile's own. -/
theorem z2_reset (c : Dev nD) (a : ℕ) (ha : a < cfg0.N) (h : a % 4 = 0) (n : Fin 2048) :
    z2At m c a ha (ix3 0 0 n) = tileMin m c a ha n := by
  rw [show z2At m c a ha = k0_pay4 (iblk m c 0 ⟨a, ha⟩) (iblk m c 1 ⟨a, ha⟩) from z2At_A m c ⟨a, ha⟩ h]
  exact Payload.pay4_apply _ _ n

/-- At a later tile it is the minimum of what the point before left and the tile's own. -/
theorem z2_step (c : Dev nD) (a : ℕ) (ha : a + 1 < cfg0.N) (h : ¬(a + 1) % 4 = 0) (n : Fin 2048) :
    z2At m c (a + 1) ha (ix3 0 0 n) = min (z2At m c a (Nat.lt_of_succ_lt ha) (ix3 0 0 n)) (tileMin m c (a + 1) ha n) := by
  rw [show z2At m c (a + 1) ha = k0_pay5 (iblk m c 0 ⟨a + 1, ha⟩) (iblk m c 1 ⟨a + 1, ha⟩) (z2At m c a (Nat.lt_of_succ_lt ha))
    from (z2At_B m c ⟨a + 1, ha⟩ h).trans rfl]
  exact Payload.pay5_apply _ _ _ n

/-- After a batch's four tiles: the four tiles' minima, nested as a running minimum takes them. -/
theorem z2_batch (c : Dev nD) (a : ℕ) (ha : a + 1 + 1 + 1 < cfg0.N) (h4 : a % 4 = 0) (n : Fin 2048) :
    z2At m c (a + 1 + 1 + 1) ha (ix3 0 0 n)
      = min (min (min (tileMin m c a (by omega) n) (tileMin m c (a + 1) (by omega) n)) (tileMin m c (a + 1 + 1) (by omega) n))
          (tileMin m c (a + 1 + 1 + 1) ha n) := by
  rw [z2_step m c (a + 1 + 1) ha (by omega) n, z2_step m c (a + 1) (by omega) (by omega) n,
    z2_step m c a (by omega) (by omega) n, z2_reset m c a (by omega) h4 n]

/-- After a batch's last tile the running minimum is the minimum over all 2048 ground-truth points of the batch. -/
theorem z2_last (c : Dev nD) (t : Fin cfg0.N) (h3 : t.val % 4 = 3) (n : Fin 2048) :
    z2At m c t.val t.isLt (ix3 0 0 n) = nearestGt (pred m c) (gt m c) (ix2 (bOf t) n) := by
  have hN : t.val < 64 := lt_of_lt_of_eq t.isLt N_0
  have hta : t.val = t.val - 3 + 1 + 1 + 1 := by omega
  have ha : t.val - 3 + 1 + 1 + 1 < cfg0.N := by rw [← hta]; exact t.isLt
  rw [z2At_congr m c hta t.isLt ha, z2_batch m c (t.val - 3) ha (by omega) n,
    tileMin_eq, tileMin_eq, tileMin_eq, tileMin_eq, nearestGt_ix2, ← fold_min_four]
  have hb : ∀ (s : ℕ) (hs : s < cfg0.N), s / 4 = t.val / 4 → bOf ⟨s, hs⟩ = bOf t := fun s hs e => Fin.ext e
  have hg : ∀ (s : ℕ) (hs : s < cfg0.N) (g : Fin 4), s % 4 = g.val → gOf ⟨s, hs⟩ = g := fun s hs g e => Fin.ext e
  rw [hb (t.val - 3) _ (by omega), hb (t.val - 3 + 1) _ (by omega), hb (t.val - 3 + 1 + 1) _ (by omega),
    hb (t.val - 3 + 1 + 1 + 1) _ (by omega),
    hg (t.val - 3) _ 0 (by show _ = 0; omega), hg (t.val - 3 + 1) _ 1 (by show _ = 1; omega),
    hg (t.val - 3 + 1 + 1) _ 2 (by show _ = 2; omega), hg (t.val - 3 + 1 + 1 + 1) _ 3 (by show _ = 3; omega)]

/-- What the point after a batch's last tile writes back is the batch's block of that array. -/
theorem flushed3_eq (c : Dev nD) (t : Fin cfg0.N) (hf : (cfg0.win 3).flush t = true) :
    (dats m 0 c).flushed 3 t = ((cfg0.win 3).blk t).view.read (Elt Ideal) (Z2arr m c) := by
  have h3 : t.val % 4 = 3 := (flush0_3 t).mp hf
  show (cfg0.win 3).cut (grid0.coords t) ((dats m 0 c).after 3 t) = _
  rw [after0_3]
  obtain ⟨-, -, -, -, -, -, -, -, -, e9, e10, e11⟩ := idx_facts t
  funext y
  rw [View.read_apply]
  show z2At m c t.val t.isLt y = Z2arr m c (((cfg0.win 3).blk t).view.emb y)
  obtain ⟨n, rfl⟩ : ∃ n : Fin 2048, y = ix3 0 0 n := ⟨y 2, idx1x1 y⟩
  rw [z2_last m c t h3 n]
  have h0 : ((((cfg0.win 3).blk t).view.emb (ix3 0 0 n)) 0 : Fin 16) = bOf t :=
    Fin.ext (by show win0_3.index t (0 : Fin 3) * 1 + 1 * 0 = t.val / 4; omega)
  have h2 : ((((cfg0.win 3).blk t).view.emb (ix3 0 0 n)) 2 : Fin 2048) = n :=
    Fin.ext (by show win0_3.index t (2 : Fin 3) * 2048 + 1 * n.val = n.val; omega)
  exact congrArg₂ (fun a b => nearestGt (pred m c) (gt m c) (ix2 a b)) h0.symm h2.symm

theorem mem_blk3 (t : Fin cfg0.N) (i : S16x1x2048.Idx) :
    i ∈ ((cfg0.win 3).blk t).view.set ↔ ∀ a : Fin 3, win0_3.index t a * S1x1x2048.size a ≤ (i a).val
      ∧ (i a).val < win0_3.index t a * S1x1x2048.size a + S1x1x2048.size a := by
  show i ∈ ((View.whole main_v0_1).slice (win0_3.rect t)).set ↔ _
  rw [View.set_slice_whole, Rect.mem_set_unit]
  exact Iff.rfl

/-- Every index lies in the block written back after its batch's last tile. -/
theorem cover3 (i : S16x1x2048.Idx) :
    ∃ t : Fin cfg0.N, (cfg0.win 3).flush t = true ∧ i ∈ ((cfg0.win 3).blk t).view.set := by
  have h0 : (i 0).val < 16 := (i 0).isLt
  have h1 : (i 1).val < 1 := (i 1).isLt
  have h2 : (i 2).val < 2048 := (i 2).isLt
  have hN : 4 * (i 0).val + 3 < cfg0.N := by rw [N64]; omega
  obtain ⟨-, -, -, -, -, -, -, -, -, e9, e10, e11⟩ := idx_facts ⟨4 * (i 0).val + 3, hN⟩
  refine ⟨⟨4 * (i 0).val + 3, hN⟩, (flush0_3 _).mpr (by show (4 * (i 0).val + 3) % 4 = 3; omega), ?_⟩
  rw [mem_blk3]
  dsimp only at e9 e10 e11
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1 ≤ (i 1).val ∧ (i 1).val < win0_3.index _ (1 : Fin 3) * 1 + 1; omega
  | ⟨2, _⟩ => show win0_3.index _ (2 : Fin 3) * 2048 ≤ (i 2).val ∧ (i 2).val < win0_3.index _ (2 : Fin 3) * 2048 + 2048; omega

/-- So the second result array ends holding the least distances to a ground-truth point. -/
theorem final3 (c : Dev nD) : (dats m 0 c).arrAt 3 cfg0.N = Z2arr m c :=
  (dats m 0 c).arrAt_eq_of_cover 3 (Z2arr m c) (fun t hf => flushed3_eq m c t hf) cover3

/-! ## The result: the host lines after the region, over the two arrays -/

/-- A [16, 1, 2048] array viewed as [16, 2048] reads (b, 0, n) at (b, n): the same row-major position. -/
theorem reshape_apply (x : S16x1x2048.Idx → EReal) (h : S16x1x2048.ShapeCasts S16x2048) (b : Fin 16) (n : Fin 2048) :
    shapeCast S16x2048 x h (ix2 b n) = x (ix3 b 0 n) :=
  shapeCast_apply x h (ix2 b n) (ix3 b 0 n) (by
    rw [Shape.rowMajor_val_three, Shape.rowMajor_val_two]
    show (b.val * 1 + 0) * 2048 + n.val = b.val * 2048 + n.val
    omega)

/-- The region's exit contents of the first result array, viewed [16, 2048], are `nearestPred`. -/
theorem viewZ (c : Dev nD) (h : S16x1x2048.ShapeCasts S16x2048) :
    shapeCast S16x2048 (Pipeline.withArrays (cfgs 0).spec c (V0 m c) (fun w => (dats m 0 c).arrAt w (cfgs 0).N)
      (Proc.devRef .tc main_v0_0)) h = nearestPred (pred m c) (gt m c) := by
  funext i
  obtain ⟨b, n, rfl⟩ : ∃ (b : Fin 16) (n : Fin 2048), i = ix2 b n := ⟨i 0, i 1, eq_ix2 i⟩
  rw [show Pipeline.withArrays (cfgs 0).spec c (V0 m c) (fun w => (dats m 0 c).arrAt w (cfgs 0).N) (Proc.devRef .tc main_v0_0)
      = Zarr m c from (Pipeline.withArrays_arr spec0 launch0.win.arr_inj c _ _ 2).trans (final2 m c)]
  exact reshape_apply _ h b n

/-- The region's exit contents of the second result array, viewed [16, 2048], are `nearestGt`. -/
theorem viewZ2 (c : Dev nD) (h : S16x1x2048.ShapeCasts S16x2048) :
    shapeCast S16x2048 (Pipeline.withArrays (cfgs 0).spec c (V0 m c) (fun w => (dats m 0 c).arrAt w (cfgs 0).N)
      (Proc.devRef .tc main_v0_1)) h = nearestGt (pred m c) (gt m c) := by
  funext i
  obtain ⟨b, n, rfl⟩ : ∃ (b : Fin 16) (n : Fin 2048), i = ix2 b n := ⟨i 0, i 1, eq_ix2 i⟩
  rw [show Pipeline.withArrays (cfgs 0).spec c (V0 m c) (fun w => (dats m 0 c).arrAt w (cfgs 0).N) (Proc.devRef .tc main_v0_1)
      = Z2arr m c from (Pipeline.withArrays_arr spec0 launch0.win.arr_inj c _ _ 3).trans (final3 m c)]
  exact reshape_apply _ h b n

open Idealize.ShloMosaic.StableHlo in
/-- The result buffer after the host lines: the loss of the two arrays. -/
theorem result_eq (c : Dev nD) :
    Pipeline.afterTail₀ cfgs (dats m) 0 (V0 m) [hostOps1] c main_v7
      = lossTail reducesTo_S16x2048_S_d0_1 h_S_ (nearestPred (pred m c) (gt m c)) (nearestGt (pred m c) (gt m c)) := by
  unfold Pipeline.afterTail₀
  show StableHlo.after hostOps1 _ (Proc.devRef .tc main_v7) = _
  after_results
  unfold lossTail
  refine congrArg₂ (fun a b : FVec Ideal S16x2048 .f32 =>
    addf (Host.divf (Host.reduceAdd a (constant (F := Ideal) S_ .f32 0x00000000#32) reducesTo_S16x2048_S_d0_1 h_S_) (constant (F := Ideal) S_ .f32 0x47000000#32))
      (Host.divf (Host.reduceAdd b (constant (F := Ideal) S_ .f32 0x00000000#32) reducesTo_S16x2048_S_d0_1 h_S_) (constant (F := Ideal) S_ .f32 0x47000000#32)))
    ?_ ?_
  · exact viewZ m c shapeCasts_S16x1x2048_S16x2048
  · exact viewZ2 m c shapeCasts_S16x1x2048_S16x2048

/-! ## The run, read -/

/-- Every weakly fair execution of the idealized kernel's program terminates with its result at the loss of the two
    nearest-distance arrays of the arguments, and the arguments unchanged. -/
theorem run : θ_run defs (onTc (τ := τ) (main (F := Ideal))) ⟨m, fun _ => 0, ρ⟩ fun r => ∀ c : Dev nD,
      r.2.mem ((c.tc : Thread nD τ).loc main_v7)
        = lossTail reducesTo_S16x2048_S_d0_1 h_S_ (nearestPred (pred m c) (gt m c)) (nearestGt (pred m c) (gt m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v7 (Pipeline.mem_restRefs_of main_v7 rfl (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Proof.KIValue

end
-- ==== Proof.RefSide.lean ====
/-
  The reference, stage by stage, is the specification: its two minimum-reductions over the [16, 2048, 2048] distance
  array are `nearestPred` and `nearestGt`, and its last lines are `lossTail` of them.
-/
import proofs.«138069_j26259430047858_1_alg».proof.Proof.Gen.ReferenceIdeal.Read
import proofs.«138069_j26259430047858_1_alg».proof.Proof.Spec
import Idealize.ShloMosaic.PureOps.Reduce
import Idealize.ShloMosaic.PureOps.Ideal.Laws

noncomputable section

namespace Cert.Chamfer.RefSide

open Idealize.ShloMosaic Idealize.ShloMosaic.ValueIdx Cert.Chamfer
open Cert.ReferenceIdeal Cert.ReferenceIdeal.Gen

/-- The distance array at batch `b`, predicted point `n`, ground-truth point `m`. -/
theorem v15_ix3 (x0 x1 : FVec Ideal S16x3x2048 .f32) (b : Fin 16) (n m : Fin 2048) :
    Cert.ReferenceIdeal.Read.val_main_v15 (F := Ideal) x0 x1 (ix3 b n m) = dist x0 x1 b n m := by
  rw [Read.val_main_v15_apply, Read.val_main_v14_apply, Read.val_main_v12_apply, Read.val_main_v9_apply,
    Read.val_main_v7_apply, Read.val_main_v5_apply, Read.val_main_v1_apply, Read.val_main_v8_apply,
    Read.val_main_v6_apply, Read.val_main_v3_apply, Read.val_main_v11_apply, Read.val_main_v10_apply,
    Read.val_main_v4_apply, Read.val_main_v13_apply, Read.val_main_cst_apply, Read.val_main_cst_0_apply,
    Read.val_main_cst_1_apply, Read.val_main_cst_2_apply]
  have e1 : ∀ k : Fin 3, Read.idx_main_v1 (Read.idx_main_v5 (Read.idx_main_v7 (ix3 b n m))) k = ix3 b k n :=
    fun k => funext fun a => Fin.ext (by match a with | ⟨0, _⟩ => rfl | ⟨1, _⟩ => rfl | ⟨2, _⟩ => rfl)
  have e3 : ∀ k : Fin 3, Read.idx_main_v3 (Read.idx_main_v6 (Read.idx_main_v8 (ix3 b n m))) k = ix3 b k m :=
    fun k => funext fun a => Fin.ext (by match a with | ⟨0, _⟩ => rfl | ⟨1, _⟩ => rfl | ⟨2, _⟩ => rfl)
  have el : ∀ k : Fin 3, Read.lidx_main_v4 (ix3 b n m) k = ix3 b k n :=
    fun k => funext fun a => Fin.ext (by match a with | ⟨0, _⟩ => rfl | ⟨1, _⟩ => rfl | ⟨2, _⟩ => rfl)
  have er : ∀ k : Fin 3, Read.ridx_main_v4 (ix3 b n m) k = ix3 b k m :=
    fun k => funext fun a => Fin.ext (by match a with | ⟨0, _⟩ => rfl | ⟨1, _⟩ => rfl | ⟨2, _⟩ => rfl)
  unfold dist
  simp only [e1, e3, el, er, Read.val_main_v0_apply, Read.val_main_v2_apply, Ideal.mulf_def, Ideal.addf_def,
    Ideal.subf_def, Ideal.maximumf_def, Ideal.hostUnary_sqrt_def, Ideal.ofBits_def, Ideal.ofBits_zero_f32, zero_add]

/-- The shape facts of the two minimum-reductions, in the form that names the index over a reduced one. -/
private theorem reduces_d1 : S16x2048x2048.Reduces [1] S16x2048 := by decide
private theorem reduces_d2 : S16x2048x2048.Reduces [2] S16x2048 := by decide

/-- The reduced index (b, m) with predicted point `k` put back on axis 1 is (b, k, m). -/
private theorem lift_d1 (b : Fin 16) (m : Fin 2048) (k : Fin (S16x2048x2048.size 1)) :
    reduces_d1.lift (ix2 b m) k = ix3 b (⟨k.val, k.isLt⟩ : Fin 2048) m := by
  funext c; apply Fin.ext
  match c with
  | ⟨0, _⟩ => rfl
  | ⟨1, _⟩ => rfl
  | ⟨2, _⟩ => rfl

/-- The reduced index (b, n) with ground-truth point `k` put back on axis 2 is (b, n, k). -/
private theorem lift_d2 (b : Fin 16) (n : Fin 2048) (k : Fin (S16x2048x2048.size 2)) :
    reduces_d2.lift (ix2 b n) k = ix3 b n (⟨k.val, k.isLt⟩ : Fin 2048) := by
  funext c; apply Fin.ext
  match c with
  | ⟨0, _⟩ => rfl
  | ⟨1, _⟩ => rfl
  | ⟨2, _⟩ => rfl

theorem nearestPred_eq (x0 x1 : FVec Ideal S16x3x2048 .f32) :
    Cert.ReferenceIdeal.Read.val_main_v16 (F := Ideal) x0 x1 = nearestPred x0 x1 := by
  funext i
  obtain ⟨b, m, rfl⟩ : ∃ (b : Fin 16) (m : Fin 2048), i = ix2 b m := ⟨i 0, i 1, eq_ix2 i⟩
  rw [nearestPred_ix2]
  unfold Read.val_main_v16
  rw [Host.reduce_eq_fold_single FloatOps.minimumf _ _ reducesTo_S16x2048x2048_S16x2048_d1 reduces_d1 h_S_]
  have hf : (Read.val_main_v15 (F := Ideal) x0 x1 ∘ reduces_d1.lift (ix2 b m)) = fun n : Fin 2048 => dist x0 x1 b n m :=
    funext fun k => (congrArg (Read.val_main_v15 (F := Ideal) x0 x1) (lift_d1 b m k)).trans (v15_ix3 x0 x1 b _ m)
  exact congrArg (fun f => Finset.fold min (Ideal.ofBits .f32 0x7F800000#32) f (Finset.univ : Finset (Fin 2048))) hf

theorem nearestGt_eq (x0 x1 : FVec Ideal S16x3x2048 .f32) :
    Cert.ReferenceIdeal.Read.val_main_v17 (F := Ideal) x0 x1 = nearestGt x0 x1 := by
  funext i
  obtain ⟨b, n, rfl⟩ : ∃ (b : Fin 16) (n : Fin 2048), i = ix2 b n := ⟨i 0, i 1, eq_ix2 i⟩
  rw [nearestGt_ix2]
  unfold Read.val_main_v17
  rw [Host.reduce_eq_fold_single FloatOps.minimumf _ _ reducesTo_S16x2048x2048_S16x2048_d2 reduces_d2 h_S_]
  have hf : (Read.val_main_v15 (F := Ideal) x0 x1 ∘ reduces_d2.lift (ix2 b n)) = fun m : Fin 2048 => dist x0 x1 b n m :=
    funext fun k => (congrArg (Read.val_main_v15 (F := Ideal) x0 x1) (lift_d2 b n k)).trans (v15_ix3 x0 x1 b n _)
  exact congrArg (fun f => Finset.fold min (Ideal.ofBits .f32 0x7F800000#32) f (Finset.univ : Finset (Fin 2048))) hf

theorem loss_eq (x0 x1 : FVec Ideal S16x3x2048 .f32) :
    Cert.ReferenceIdeal.Read.val_main_v22 (F := Ideal) x0 x1
      = lossTail reducesTo_S16x2048_S_d0_1 h_S_ (nearestPred x0 x1) (nearestGt x0 x1) := by
  unfold Read.val_main_v22 Read.val_main_v21 Read.val_main_v20 Read.val_main_v19 Read.val_main_v18
    Read.val_main_cst_5 Read.val_main_cst_6 Read.val_main_cst_7 Read.val_main_cst_8 lossTail
  rw [nearestPred_eq, nearestGt_eq]

end Cert.Chamfer.RefSide

end
-- ==== Proof.lean ====
/-
  The chamfer distance of two point clouds, tiled: the kernel against its reference, over the extended reals.

  Both programs take 16 batches of 2048 predicted and 2048 ground-truth points in three coordinates and compute, for
  every pair of a batch, the distance sqrt(max(|p|² + |g|² − 2·(p·g), 0)); then for each ground-truth point the least
  distance to a predicted point, for each predicted point the least distance to a ground-truth point, and the loss: each
  of the two arrays summed, divided by 16·2048, the quotients added.

  The reference forms the whole [16, 2048, 2048] distance array and reduces it along either axis. The kernel walks a
  grid of 16 batches × 4 tiles of 512 ground-truth points: a point computes the 2048 × 512 distances of its batch's
  predicted points to its tile, writes the tile's least distance per ground-truth point straight out, and keeps a running
  minimum per predicted point in a buffer that is set at a batch's first tile, lowered at the other three, and written
  out after the fourth. Over the extended reals the two agree: the sums over the three coordinates are the same sums
  however they are taken (a lane sum, a matrix product into zero, a host sum from zero, a dot_general); a minimum over
  2048 points from +∞ is the nested minimum of the four minima over consecutive blocks of 512, each from +∞; and the
  last host lines are the same lines. No input need be finite for any of this: only commutativity and associativity of
  the sum and of the minimum are used, which hold on all of the extended reals.

  * Proof/Spec.lean — the mathematics, with no program in sight.
  * Proof/KI/Run.lean, Proof/KI/Body.lean — the kernel body's two runs (first tile of a batch, later tile), what each
    output's buffer holds point by point, the body obligation, the run and the frame, for every reading of the floats;
    Proof/K/ is the same text for the word-level program.
  * Proof/Payload.lean, Proof/MinBlocks.lean — what a point stores, read at an index; the four-block minimum.
  * Proof/KI/Value.lean — the idealized kernel's two result arrays and its result as the specification's.
  * Proof/RefSide.lean — the reference's stages as the specification's.
-/
import proofs.«138069_j26259430047858_1_alg».proof.Defs
import proofs.«138069_j26259430047858_1_alg».proof.Proof.Gen.Kernel
import proofs.«138069_j26259430047858_1_alg».proof.Proof.Gen.KernelIdeal
import proofs.«138069_j26259430047858_1_alg».proof.Proof.Gen.ReferenceIdeal
import proofs.«138069_j26259430047858_1_alg».proof.Proof.Gen.ReferenceIdeal.Run
import proofs.«138069_j26259430047858_1_alg».proof.Proof.Gen.ReferenceIdeal.Read
import proofs.«138069_j26259430047858_1_alg».proof.Proof.Gen.Pre_finite_inputs
import proofs.«138069_j26259430047858_1_alg».proof.Proof.K.Body
import proofs.«138069_j26259430047858_1_alg».proof.Proof.KI.Value
import proofs.«138069_j26259430047858_1_alg».proof.Proof.RefSide
import Idealize.ShloMosaic.Adequacy
import Idealize.ShloMosaic.Init

noncomputable section

namespace Cert.Proof

open Idealize.ShloMosaic Idealize.SL.Sem

/-- The word-level kernel runs to the end, faults nowhere and leaves its arguments as they were. -/
theorem frame_kernel : Cert.frame_Kernel := fun m ρ _ => Cert.Proof.K.frame (F := Bits) m ρ

/-- So does its idealization. -/
theorem frame_kernelIdeal : Cert.frame_KernelIdeal := fun m ρ _ => Cert.Proof.KI.frame (F := Ideal) m ρ

/-- The reference is host lines only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the two point clouds both programs end with the same loss: the kernel's result is the
    loss of the two nearest-distance arrays (its value run), the reference's is the same function of the same arguments
    (its generated run, read stage by stage). -/
theorem algebraic : Cert.algebraic_KernelIdeal_ReferenceIdeal := by
  intro m ρ m' ρ' _ hagree
  refine ⟨_, Cert.Proof.KIValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.Chamfer.RefSide.loss_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
